-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S1x1000000 : Shape := ⟨2, ![1, 1000000]⟩
abbrev S1000000 : Shape := ⟨1, ![1000000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  slices_S2x1000000_S1x1000000_1_0 : S2x1000000.Slices ![1, 0] S1x1000000

variable [Facts]

def fn_part2 {F : FTy → Type} [FloatOps F] (main_arg2 : IVec S2x1000000 32) (main_v28 : IVec S_ 1) (main_v32 : IVec S1000000 1) (main_v34 : IVec S1000000 32) : IVec S_ 1 :=
  let main_c_11 : IVec S_ 32 := constantI S_ 32 100000#32
  let main_v35 : IVec S1000000 32 := broadcastInDim S1000000 ![] bcast_S_S1000000 main_c_11
  let main_v36 : IVec S1000000 1 := cmpi .slt main_v34 main_v35
  let main_v37 : IVec S1000000 1 := andi main_v32 main_v36
  let main_c_12 : IVec S_ 1 := constantI S_ 1 1#1
  let main_v38 : IVec S_ 1 := (fun x v => Host.reduce IntOp.andi x v reducesTo_S1000000_S_d0 h_S_) main_v37 main_c_12
  let main_v39 : IVec S_ 1 := andi main_v28 main_v38
  let main_v40 : IVec S1x1000000 32 := (extractStridedSlice S1x1000000 ![1, 0] · slices_S2x1000000_S1x1000000_1_0) main_arg2
  let main_v41 : IVec S1000000 32 := shapeCast S1000000 main_v40 shapeCasts_S1x1000000_S1000000
  let main_c_13 : IVec S_ 32 := constantI S_ 32 4294917296#32
  let main_v42 : IVec S1000000 32 := broadcastInDim S1000000 ![] bcast_S_S1000000 main_c_13
  let main_v43 : IVec S1000000 1 := cmpi .sge main_v41 main_v42
  let main_v44 : IVec S1x1000000 32 := (extractStridedSlice S1x1000000 ![1, 0] · slices_S2x1000000_S1x1000000_1_0) main_arg2
  let main_v45 : IVec S1000000 32 := shapeCast S1000000 main_v44 shapeCasts_S1x1000000_S1000000
  let main_c_14 : IVec S_ 32 := constantI S_ 32 50000#32
  let main_v46 : IVec S1000000 32 := broadcastInDim S1000000 ![] bcast_S_S1000000 main_c_14
  let main_v47 : IVec S1000000 1 := cmpi .slt main_v45 main_v46
  let main_v48 : IVec S1000000 1 := andi main_v43 main_v47
  let main_c_15 : IVec S_ 1 := constantI S_ 1 1#1
  let main_v49 : IVec S_ 1 := (fun x v => Host.reduce IntOp.andi x v reducesTo_S1000000_S_d0 h_S_) main_v48 main_c_15
  let main_v50 : IVec S_ 1 := andi main_v39 main_v49
  main_v50

def fn_part1 {F : FTy → Type} [FloatOps F] (main_arg2 : IVec S2x1000000 32) (main_arg5 : FVec F S1x128 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : IVec S1x1000000 32 := (extractStridedSlice S1x1000000 ![0, 0] · slices_S2x1000000_S1x1000000_0_0) main_arg2
  let main_v30 : IVec S1000000 32 := shapeCast S1000000 main_v29 shapeCasts_S1x1000000_S1000000
  let main_c_10 : IVec S_ 32 := constantI S_ 32 4294867296#32
  let main_v31 : IVec S1000000 32 := broadcastInDim S1000000 ![] bcast_S_S1000000 main_c_10
  let main_v32 : IVec S1000000 1 := cmpi .sge main_v30 main_v31
  let main_v33 : IVec S1x1000000 32 := (extractStridedSlice S1x1000000 ![0, 0] · slices_S2x1000000_S1x1000000_0_0) main_arg2
  let main_v34 : IVec S1000000 32 := shapeCast S1000000 main_v33 shapeCasts_S1x1000000_S1000000
  fn_part2 (F := F) main_arg2 main_v28 main_v32 main_v34

def fn {F : FTy → Type} [FloatOps F] (main_arg0 : FVec F S100000x128 .f32) (main_arg1 : FVec F S50000x128 .f32) (main_arg2 : IVec S2x1000000 32) (main_arg3 : FVec F S128x256 .f32) (main_arg4 : FVec F S128 .f32) (main_arg5 : FVec F S1x128 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x1 : Shape := ⟨2, ![1, 1]⟩
abbrev S1000000x128 : Shape := ⟨2, ![1000000, 128]⟩
abbrev S128x128 : Shape := ⟨2, ![128, 128]⟩
abbrev S8000x128 : Shape := ⟨2, ![8000, 128]⟩
abbrev S8000x1 : Shape := ⟨2, ![8000, 1]⟩
abbrev S128x1 : Shape := ⟨2, ![128, 1]⟩

abbrev nBuf : Space → Nat
  | .hbm => 60
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x128, .f32⟩
  | .hbm, ⟨30, _⟩ => ⟨S1000000x128, .i1⟩
  | .hbm, ⟨31, _⟩ => ⟨S_, .f32⟩
  | .hbm, ⟨32, _⟩ => ⟨S1000000x128, .f32⟩
  | .hbm, ⟨33, _⟩ => ⟨S1000000x128, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1, .i32⟩
  | .hbm, ⟨43, _⟩ => ⟨S_, .i32⟩
  | .hbm, ⟨44, _⟩ => ⟨S1000000x1, .i32⟩
  | .hbm, ⟨45, _⟩ => ⟨S1000000x1, .i1⟩
  | .hbm, ⟨46, _⟩ => ⟨S1x1, .i32⟩
  | .hbm, ⟨47, _⟩ => ⟨S1000000x1, .i32⟩
  | .hbm, ⟨48, _⟩ => ⟨S1000000x1, .i1⟩
  | .hbm, ⟨49, _⟩ => ⟨S1000000x1, .i1⟩
  | .hbm, ⟨50, _⟩ => ⟨S_, .i1⟩
  | .hbm, ⟨51, _⟩ => ⟨S1000000, .i1⟩
  | .hbm, ⟨52, _⟩ => ⟨S1000000x128, .f32⟩
  | .hbm, ⟨53, _⟩ => ⟨S1000000x128, .i1⟩
  | .hbm, ⟨54, _⟩ => ⟨S_, .f32⟩
  | .hbm, ⟨55, _⟩ => ⟨S1000000x128, .f32⟩
  | .hbm, ⟨56, _⟩ => ⟨S1000000x128, .f32⟩
  | .hbm, ⟨57, _⟩ => ⟨S128x128, .f32⟩
  | .hbm, ⟨58, _⟩ => ⟨S128x128, .f32⟩
  | .hbm, ⟨59, _⟩ => ⟨S1000000x1, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S1x128, .f32⟩
  | .local _ .vmem, ⟨8, _⟩ => ⟨S1, .f32⟩
  | .local _ .vmem, ⟨9, _⟩ => ⟨S8000x1, .f32⟩
  | .local _ .vmem, ⟨10, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  slices_S128x256_S128x128_0_0 : S128x256.Slices ![0, 0] S128x128
  slices_S128x256_S128x128_0_128 : S128x256.Slices ![0, 128] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .f32 = 32 ∨ (Rect.block (s := S1000000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x1.size a ≤ S1000000x1.size a
  hwx0_7 : ∀ i : grid0.Coords, EltTy.bits .f32 = 32 ∨ (Rect.block (s := S1000000x1) S8000x1.size (cc0_transform_7 i) (hinb0_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S8000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x1000000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x128, .f32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x256, .f32⟩
  | .hbm, ⟨30, _⟩ => ⟨S256x128, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S128x1, .f32⟩
  | .hbm, ⟨39, _⟩ => ⟨S1000000x1, .f32⟩
  | .hbm, ⟨40, _⟩ => ⟨S1x1, .f32⟩
  | .hbm, ⟨41, _⟩ => ⟨S1000000x1, .f32⟩
  | .hbm, ⟨42, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x128_S1000000x256_d1 : Shape.Concatenates [S1000000x128, S1000000x128] S1000000x256 1
  transposes_S128x256_S256x128_1_0 : S128x256.Transposes [1, 0] S256x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.Domain.lean ====
/-
  The index-range conjuncts of the precondition, read back.

  The precondition is a chain of conjunctions (`stablehlo.and`) of universally quantified tests (`jnp.all`: a reduce
  by `and` from the constant 1 into the scalar shape). Its last two conjuncts test the two rows of the 2 × 1000000
  integer input: every entry x of row 0 has −100000 ≤ x < 100000 (signed), every entry of row 1 has −50000 ≤ x < 50000.
  If the whole chain is 1 then each conjunct is 1 (a conjunction of bits is 1 only when both are), and a reduce by
  `and` that is 1 met only 1s, so the mask under it — the conjunction of the two comparisons — is 1 at every entry,
  hence both comparisons are. The compared bound is a broadcast scalar constant, which reads its word at every index.
-/
import proofs.«420539_j9405978378812_1_alg».proof.Pre_finite_inputs
import Idealize.ShloMosaic.Lib.ReduceAll
import Idealize.ShloMosaic.Lib.ValueIdx

namespace Cert.Domain

open Cert.Pre_finite_inputs Idealize.ShloMosaic

variable [Cert.Pre_finite_inputs.Facts]

/-- The scalar shape has one index. -/
theorem scalarIdx_subsingleton : Subsingleton S_.Idx := ⟨fun _ _ => funext fun d => d.elim0⟩

attribute [local instance] scalarIdx_subsingleton

/-- A conjunction of two scalar bits that is 1 has both bits 1. -/
theorem and_scalar (A B : IVec S_ 1) (h : andi A B ValueIdx.ix0 = 1#1) :
    A ValueIdx.ix0 = 1#1 ∧ B ValueIdx.ix0 = 1#1 :=
  IntOp.andi_eq_one.1 h

/-- One range test read back: if "every entry x of v has lo ≤ x and x < hi" (signed) came out 1, then at each
    entry both comparisons are 1. The bounds are scalar constants broadcast over the vector's shape. -/
theorem all_range (v : IVec S1000000 32) (lo hi : BitVec 32) (init : IVec S_ 1)
    (h : Host.reduce IntOp.andi
          (andi (cmpi .sge v (broadcastInDim S1000000 ![] Facts.bcast_S_S1000000 (constantI S_ 32 lo)))
                (cmpi .slt v (broadcastInDim S1000000 ![] Facts.bcast_S_S1000000 (constantI S_ 32 hi))))
          init Facts.reducesTo_S1000000_S_d0 Facts.h_S_ ValueIdx.ix0 = 1#1)
    (e : S1000000.Idx) :
    IntOp.cmpi .sge (v e) lo = 1#1 ∧ IntOp.cmpi .slt (v e) hi = 1#1 :=
  IntOp.andi_eq_one.1 (Host.reduce_andi_all _ _ _ _ _ h e)

theorem index_bounds {F : FTy → Type} [FloatOps F] (a0 : FVec F S100000x128 .f32) (a1 : FVec F S50000x128 .f32) (a2 : IVec S2x1000000 32)
    (a3 : FVec F S128x256 .f32) (a4 : FVec F S128 .f32) (a5 : FVec F S1x128 .f32) (a6 : FVec F S1 .f32)
    (h : Cert.Pre_finite_inputs.fn (F := F) a0 a1 a2 a3 a4 a5 a6 = fun _ => 1#1) :
    (∀ e : S1000000.Idx,
        IntOp.cmpi .sge (shapeCast S1000000 (extractStridedSlice S1x1000000 ![0, 0] a2 Facts.slices_S2x1000000_S1x1000000_0_0) Facts.shapeCasts_S1x1000000_S1000000 e) 4294867296#32 = 1#1
      ∧ IntOp.cmpi .slt (shapeCast S1000000 (extractStridedSlice S1x1000000 ![0, 0] a2 Facts.slices_S2x1000000_S1x1000000_0_0) Facts.shapeCasts_S1x1000000_S1000000 e) 100000#32 = 1#1)
    ∧ (∀ e : S1000000.Idx,
        IntOp.cmpi .sge (shapeCast S1000000 (extractStridedSlice S1x1000000 ![1, 0] a2 Facts.slices_S2x1000000_S1x1000000_1_0) Facts.shapeCasts_S1x1000000_S1000000 e) 4294917296#32 = 1#1
      ∧ IntOp.cmpi .slt (shapeCast S1000000 (extractStridedSlice S1x1000000 ![1, 0] a2 Facts.slices_S2x1000000_S1x1000000_1_0) Facts.shapeCasts_S1x1000000_S1000000 e) 50000#32 = 1#1) := by
  -- the whole chain at the scalar shape's one index
  have h0 := congrFun h ValueIdx.ix0
  dsimp only [fn, fn_part1, fn_part2] at h0
  -- the chain is ((earlier tests ∧ row-0 test) ∧ row-1 test): peel from the outside in
  obtain ⟨h1, hrow1⟩ := and_scalar _ _ h0
  obtain ⟨_, hrow0⟩ := and_scalar _ _ h1
  exact ⟨fun e => all_range _ _ _ _ hrow0 e, fun e => all_range _ _ _ _ hrow1 e⟩

end Cert.Domain
-- ==== Proof.TakeFill.lean ====
/-
  Rows taken from a table with out-of-range rows filled: when the fill never happens.

  An index vector v of 1000000 signed words is first wrapped (a negative word gets the table's row count n
  added) and laid out as a column; the row gather reads the table at that column; a row whose wrapped
  index lies outside [0, n − 1] is replaced by a fill value. The fill decision is a mask: the conjunction,
  over the column's one entry per row, of "wrapped ≥ 0" and "wrapped ≤ n − 1", spread along the 128 columns.

  If every word of v lies in [−n, n) — the range in which an index names a row, counting from the end when
  negative — then the wrapped index lies in [0, n − 1] (wrapped_passes, a fact about one 32-bit word), so the
  mask is everywhere 1 and the filled gather IS the gather (fill_select_eq).
-/
import Idealize.ShloMosaic.PureOps.Ideal
import Idealize.ShloMosaic.Lib.ValueIdx

noncomputable section

namespace Cert.TakeFill

open Idealize.ShloMosaic

/-! ## One word -/

theorem ofBool_one (b : Bool) : BitVec.ofBool b = 1#1 ↔ b = true := by cases b <;> decide
theorem ofBool_one' (b : Bool) : BitVec.ofBool b = 1 ↔ b = true := by cases b <;> decide

/-- A 32-bit word read signed is its unsigned value, or that less 2³² from 2³¹ on. -/
theorem toInt_cases (x : BitVec 32) :
    (x.toNat < 2147483648 ∧ x.toInt = (x.toNat : Int)) ∨ (2147483648 ≤ x.toNat ∧ x.toInt = (x.toNat : Int) - 4294967296) := by
  rw [BitVec.toInt_eq_toNat_cond]
  split
  · left; omega
  · right; omega

theorem sle_iff (x y : BitVec 32) : x.sle y = true ↔ x.toInt ≤ y.toInt := by simp [BitVec.sle]
theorem slt_iff (x y : BitVec 32) : x.slt y = true ↔ x.toInt < y.toInt := by simp [BitVec.slt]

/-- A word x in [−n, n), wrapped (x + n when x < 0, else x), lies in [0, n − 1]. The three constants are given
    as words: lo reads −n, nn reads n, hi reads n − 1. -/
theorem wrapped_passes (n : Nat) (lo nn hi : BitVec 32) (hn : n < 2147483648)
    (hlo : lo.toInt = -(n : Int)) (hnn : nn.toNat = n) (hhi : hi.toInt = (n : Int) - 1)
    (x : BitVec 32) (h1 : IntOp.cmpi .sge x lo = 1#1) (h2 : IntOp.cmpi .slt x nn = 1#1) :
    IntOp.andi (IntOp.cmpi .sge (Scalar.select (IntOp.cmpi .slt x 0#32) (IntOp.addi x nn) x) 0#32)
      (IntOp.cmpi .sle (Scalar.select (IntOp.cmpi .slt x 0#32) (IntOp.addi x nn) x) hi) = 1#1 := by
  simp only [IntOp.cmpi, ofBool_one, sle_iff, slt_iff] at h1 h2
  have c3 : (0#32 : BitVec 32).toInt = 0 := by decide
  have hnn' : nn.toInt = (n : Int) := by
    rcases toInt_cases nn with ⟨_, e⟩ | ⟨h, _⟩
    · rw [e, hnn]
    · omega
  rw [hlo] at h1; rw [hnn'] at h2
  have hx := toInt_cases x
  have hy := toInt_cases (x + nn)
  have hadd : (x + nn).toNat = (x.toNat + n) % 4294967296 := by
    rw [BitVec.toNat_add, hnn]
  have hlt : x.toNat < 4294967296 := x.isLt
  unfold Scalar.select
  by_cases hc : IntOp.cmpi .slt x 0#32 = 1
  · rw [if_pos hc]
    simp only [IntOp.cmpi, ofBool_one', slt_iff, c3] at hc
    simp only [IntOp.cmpi, IntOp.andi, IntOp.addi]
    have a : (0#32).sle (x + nn) = true := by rw [sle_iff, c3]; omega
    have b : (x + nn).sle hi = true := by rw [sle_iff, hhi]; omega
    rw [a, b]; decide
  · rw [if_neg hc]
    simp only [IntOp.cmpi, ofBool_one', slt_iff, c3] at hc
    simp only [IntOp.cmpi, IntOp.andi]
    have a : (0#32).sle x = true := by rw [sle_iff, c3]; omega
    have b : x.sle hi = true := by rw [sle_iff, hhi]; omega
    rw [a, b]; decide

/-! ## Masks that are everywhere 1 -/

/-- Reducing an all-ones mask by "and" from 1 gives 1 at every result index. -/
theorem reduce_andi_ones {s t u : Shape} {axes : List (Fin s.rank)} (init : u.Idx → BitVec 1) (hinit : ∀ k, init k = 1#1)
    (h : s.ReducesTo axes t) (hu : 0 < u.numel) :
    Host.reduce IntOp.andi (fun _ : s.Idx => (1#1 : BitVec 1)) init h hu = fun _ => 1#1 := by
  funext j
  unfold Host.reduce
  rw [hinit]
  generalize ((List.finRange s.numel).filter fun n => h.drop (s.rowMajor.symm n) = j) = l
  induction l with
  | nil => rfl
  | cons a l ih =>
    rw [List.foldl_cons]
    have e : IntOp.andi (1#1 : BitVec 1) 1#1 = 1#1 := by decide
    rw [e]; exact ih

/-- Selecting by an all-ones mask takes the first operand. -/
theorem select_ones {α : Type} {s : Shape} (a b : s.Idx → α) : select (fun _ : s.Idx => (1#1 : BitVec 1)) a b = a := by
  funext i
  simp [select, Scalar.select]

/-! ## The filled gather -/

abbrev Sn : Shape := ⟨1, ![1000000]⟩
abbrev Scol : Shape := ⟨2, ![1000000, 1]⟩
abbrev Srow : Shape := ⟨2, ![1000000, 128]⟩
abbrev S0 : Shape := ⟨0, ![]⟩
abbrev S1 : Shape := ⟨1, ![1]⟩
abbrev S11 : Shape := ⟨2, ![1, 1]⟩

/-- The wrapped index vector as a column: a negative word gets nn added. -/
abbrev wrapCol (hb0 : S0.BroadcastsInDim Sn (![] : Fin 0 → Fin Sn.rank)) (hbc : Sn.BroadcastsInDim Scol ![0]) (nn : BitVec 32)
    (v : IVec Sn 32) : IVec Scol 32 :=
  broadcastInDim Scol ![0] hbc
    (select (cmpi .slt v (broadcastInDim Sn ![] hb0 (constantI S0 32 0#32)))
      (addi v (broadcastInDim Sn ![] hb0 (constantI S0 32 nn))) v)

/-- With every word of v in [−n, n), the range test on the wrapped column passes everywhere, so the rows g survive
    the fill. -/
theorem fill_select_eq {α : Type} (hb0 : S0.BroadcastsInDim Sn (![] : Fin 0 → Fin Sn.rank)) (hbc : Sn.BroadcastsInDim Scol ![0])
    (hb0c : S0.BroadcastsInDim Scol (![] : Fin 0 → Fin Scol.rank)) (hb1 : S1.BroadcastsInDim S11 ![1])
    (hb11 : S11.BroadcastsInDim Scol ![0, 1]) (hred : Scol.ReducesTo [1] Sn) (hu : 0 < S0.numel)
    (hbr : Sn.BroadcastsInDim Srow ![0])
    (n : Nat) (lo nn hi : BitVec 32) (hn : n < 2147483648)
    (hlo : lo.toInt = -(n : Int)) (hnn : nn.toNat = n) (hhi : hi.toInt = (n : Int) - 1)
    (v : IVec Sn 32) (hv : ∀ e, IntOp.cmpi .sge (v e) lo = 1#1 ∧ IntOp.cmpi .slt (v e) nn = 1#1)
    (g fillv : Srow.Idx → α) :
    select (broadcastInDim Srow ![0] hbr
        (Host.reduce IntOp.andi
          (andi (cmpi .sge (wrapCol hb0 hbc nn v) (broadcastInDim Scol ![] hb0c (constantI S0 32 0#32)))
            (cmpi .sle (wrapCol hb0 hbc nn v) (broadcastInDim Scol ![0, 1] hb11 (broadcastInDim S11 ![1] hb1 (constantI S1 32 hi)))))
          (constantI S0 1 1#1) hred hu)) g fillv = g := by
  have hmask : andi (cmpi .sge (wrapCol hb0 hbc nn v) (broadcastInDim Scol ![] hb0c (constantI S0 32 0#32)))
      (cmpi .sle (wrapCol hb0 hbc nn v) (broadcastInDim Scol ![0, 1] hb11 (broadcastInDim S11 ![1] hb1 (constantI S1 32 hi))))
      = fun _ => 1#1 := by
    funext i
    simp only [andi, cmpi, wrapCol, select, addi, broadcastInDim, constantI]
    exact wrapped_passes n lo nn hi hn hlo hnn hhi _ (hv _).1 (hv _).2
  rw [hmask, reduce_andi_ones (constantI S0 1 1#1) (fun _ => rfl) hred hu]
  have hb : broadcastInDim Srow ![0] hbr (fun _ : Sn.Idx => (1#1 : BitVec 1)) = fun _ => 1#1 := rfl
  rw [hb, select_ones]

end Cert.TakeFill

end
-- ==== Proof.HostDefs.lean ====
/-
  What the kernel's region finds: the host operations before the call, read as terms of the arguments.

  The two gathered arrays are "rows of the table at the wrapped index column, out-of-range rows filled"; the
  two weight blocks are the left and right 128 columns of the 128 × 256 first-layer matrix. Under the index
  bounds the fill never happens (Cert.TakeFill.fill_select_eq), so the gathered arrays are plain row gathers.

  The operations before the call come in four stretches; the contents after all of them are the contents
  after the last stretch from the contents after the earlier ones (after_append), a stretch that does not
  write a buffer leaves it as it was, and the stretch that does write it is read operation by operation.
-/
import proofs.«420539_j9405978378812_1_alg».proof.Proof.Gen.KernelIdeal.Frame
import proofs.«420539_j9405978378812_1_alg».proof.Proof.TakeFill
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.Tactic
open Idealize.SL.Sem Idealize.ShloMosaic.StableHlo

variable {F : FTy → Type} [FloatOps F]

/-- The contents after two stretches of operations are the contents after the second from those after the first. -/
theorem after_append (l₁ l₂ : List (HloOp τ sig (Elt F))) (X : Valuation τ sig (Elt F)) :
    after (l₁ ++ l₂) X = after l₂ (after l₁ X) := by
  induction l₁ generalizing X with
  | nil => rfl
  | cons op l ih => simp only [List.cons_append, after_cons, ih]

/-- Row 0 (the first table's indices) and row 1 (the second's) of the index pair, as vectors. -/
abbrev idxRow0 (a2 : IVec S2x1000000 32) : IVec S1000000 32 :=
  shapeCast S1000000 (extractStridedSlice S1x1000000 ![0, 0] a2 slices_S2x1000000_S1x1000000_0_0) shapeCasts_S1x1000000_S1000000
abbrev idxRow1 (a2 : IVec S2x1000000 32) : IVec S1000000 32 :=
  shapeCast S1000000 (extractStridedSlice S1x1000000 ![1, 0] a2 slices_S2x1000000_S1x1000000_1_0) shapeCasts_S1x1000000_S1000000

/-- An index vector wrapped (a negative word gets the row count added) and laid out as a column. -/
abbrev wrapped (nn : BitVec 32) (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 nn))) v)

/-- The fill mask of a wrapped column against the last row hi, spread along the 128 columns. -/
abbrev inRange (hi : BitVec 32) (col : IVec S1000000x1 32) : IVec S1000000x128 1 :=
  broadcastInDim S1000000x128 ![0] bcast_S1000000_S1000000x128_0
    (Host.reduce IntOp.andi
      (andi (cmpi .sge col (broadcastInDim S1000000x1 ![] bcast_S_S1000000x1 (constantI S_ 32 0#32)))
        (cmpi .sle col (broadcastInDim S1000000x1 ![0, 1] bcast_S1x1_S1000000x1_0_1 (broadcastInDim S1x1 ![1] bcast_S1_S1x1_1 (constantI S1 32 hi)))))
      (constantI S_ 1 1#1) reducesTo_S1000000x1_S1000000_d1 h_S_)

variable (m : (ℓ : Loc nD τ sig) → Buf (Elt F) ℓ)

/-- The contents the region finds, stretch by stretch. -/
theorem V_stretches (c : Dev nD) (b : Ref sig .tc) :
    V m c b = after hostOps0_3 (after hostOps0_2 (after hostOps0_1 (after hostOps0 (fun b => m (c, b))))) (Proc.devRef .tc b) := by
  show after (hostOps0 ++ (hostOps0_1 ++ (hostOps0_2 ++ (hostOps0_3 ++ [])))) (fun b => m (c, b)) (Proc.devRef .tc b) = _
  rw [after_append, after_append, after_append, after_append, after_nil]

/-- Closes "no operation of this stretch writes this buffer". -/
macro "not_written" : tactic =>
  `(tactic| (refine List.forall_iff_forall_mem.mp ?_
             simp only [hostOps0, hostOps0_1, hostOps0_2, hostOps0_3, List.take_succ_cons, List.take_zero, List.drop_succ_cons, List.drop_zero,
               List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

end Cert.KernelIdeal.HostSide

end
-- ==== Proof.HostTake0.lean ====
/-
  The first gathered array as the kernel's region finds it: rows of the first table at the wrapped first index row,
  rows whose wrapped index is out of range filled.

  The stretch of 23 operations that forms it is read in three short segments, each over ANY contents found
  before it: the wrapped index column (operations 1–8), the range test of the wrapped column reduced to one bit a
  row (operations 9–18), and the gather, the test spread along the columns, the fill value and the selection
  (operations 19–23). A segment that does not write a buffer leaves it as it was.
-/
import proofs.«420539_j9405978378812_1_alg».proof.Proof.HostDefs

noncomputable section

namespace Cert.KernelIdeal.HostSide

open Cert.KernelIdeal Cert.KernelIdeal.Gen Idealize.ShloMosaic Idealize.ShloMosaic.TcCoe Idealize.ShloMosaic.Tactic
open Idealize.SL.Sem Idealize.ShloMosaic.StableHlo

variable {F : FTy → Type} [FloatOps F]
variable (m : (ℓ : Loc nD τ sig) → Buf (Elt F) ℓ)

/-- Operations 1–8: the wrapped index column, from the index row found before. -/
theorem take0_col (X : Valuation τ sig (Elt F)) :
    (after (List.take 8 (hostOps0_1 (F := F))) X (Proc.devRef .tc main_call0_v5) : IVec S1000000x1 32)
      = wrapped 100000#32 (X (Proc.devRef .tc main_v1)) := by
  simp only [hostOps0_1, List.take_succ_cons, List.take_zero]
  after_results_simp
  simp only [TRef.toBuf, TRef.ofBuf, cast_cast, cast_eq]

/-- Operations 9–18: the range test of the wrapped column, one bit a row. -/
theorem take0_mask (Y : Valuation τ sig (Elt F)) :
    (after (List.take 10 (List.drop 8 (hostOps0_1 (F := F)))) Y (Proc.devRef .tc main_call0_v12) : IVec S1000000 1)
      = Host.reduce IntOp.andi
          (andi (cmpi .sge (Y (Proc.devRef .tc main_call0_v5) : IVec S1000000x1 32) (broadcastInDim S1000000x1 ![] bcast_S_S1000000x1 (constantI S_ 32 0#32)))
            (cmpi .sle (Y (Proc.devRef .tc main_call0_v5) : IVec S1000000x1 32) (broadcastInDim S1000000x1 ![0, 1] bcast_S1x1_S1000000x1_0_1 (broadcastInDim S1x1 ![1] bcast_S1_S1x1_1 (constantI S1 32 99999#32)))))
          (constantI S_ 1 1#1) reducesTo_S1000000x1_S1000000_d1 h_S_ := by
  simp only [hostOps0_1, List.drop_succ_cons, List.drop_zero, List.take_succ_cons, List.take_zero]
  after_results_simp
  simp only [TRef.toBuf, TRef.ofBuf, cast_cast, cast_eq]

/-- Operations 19–23: the gather at the wrapped column, and the selection between it and the fill value. -/
theorem take0_fill (Z : Valuation τ sig (Elt F)) :
    (after (List.drop 10 (List.drop 8 (hostOps0_1 (F := F)))) Z (Proc.devRef .tc main_v4) : S1000000x128.Idx → Elt F .f32)
      = select (broadcastInDim S1000000x128 ![0] bcast_S1000000_S1000000x128_0 (Z (Proc.devRef .tc main_call0_v12) : IVec S1000000 1))
          (Host.gather gather_S100000x128_S1000000x1_S1000000x128_1_0_n_n_0_1_1128 (Z (Proc.devRef .tc main_arg0)) (Z (Proc.devRef .tc main_call0_v5)))
          (broadcastInDim S1000000x128 ![] bcast_S_S1000000x128 (constant (F := F) S_ .f32 0x7FC00000#32)) := by
  simp only [hostOps0_1, List.drop_succ_cons, List.drop_zero]
  after_results_simp
  simp only [TRef.toBuf, TRef.ofBuf, cast_cast, cast_eq]

/-- The table is written by no operation of the stretch … -/
theorem take0_table_kept : ∀ op ∈ (hostOps0_1 (F := F)), Proc.devRef .tc main_arg0 ∉ op.writes := by not_written

/-- … and the wrapped column by none of operations 9–18. -/
theorem take0_col_kept : ∀ op ∈ List.take 10 (List.drop 8 (hostOps0_1 (F := F))), Proc.devRef .tc main_call0_v5 ∉ op.writes := by
  not_written

set_option maxHeartbeats 1000000 in
/-- The gathered array as the region finds it: the rows of the table at the wrapped index column, rows whose wrapped
    index is out of range filled. -/
theorem found_v4 (c : Dev nD) :
    (V m c main_v4 : S1000000x128.Idx → Elt F .f32)
      = select (inRange 99999#32 (wrapped 100000#32 (idxRow0 (m ((c : Thread nD τ).loc main_arg2)))))
          (Host.gather gather_S100000x128_S1000000x1_S1000000x128_1_0_n_n_0_1_1128 (m ((c : Thread nD τ).loc main_arg0))
            (wrapped 100000#32 (idxRow0 (m ((c : Thread nD τ).loc main_arg2)))))
          (broadcastInDim S1000000x128 ![] bcast_S_S1000000x128 (constant (F := F) S_ .f32 0x7FC00000#32)) := by
  rw [V_stretches]
  rw [after_of_forall_not_mem hostOps0_3 _ (by not_written), after_of_forall_not_mem hostOps0_2 _ (by not_written)]
  -- the index row, and the table untouched, after the first stretch
  have hv1 : (after hostOps0 (fun b => m (c, b)) (Proc.devRef .tc main_v1) : IVec S1000000 32)
      = idxRow0 (m ((c : Thread nD τ).loc main_arg2)) := by
    dsimp only [hostOps0]
    after_results
    rfl
  have ha : after hostOps0 (fun b => m (c, b)) (Proc.devRef .tc main_arg0) = m ((c : Thread nD τ).loc main_arg0) :=
    after_of_forall_not_mem hostOps0 _ (by not_written)
  generalize after hostOps0 (fun b => m (c, b)) = X0 at hv1 ha ⊢
  -- the stretch in its three segments
  rw [← List.take_append_drop 8 (hostOps0_1 (F := F)), after_append,
    ← List.take_append_drop 10 (List.drop 8 (hostOps0_1 (F := F))), after_append]
  rw [take0_fill, take0_mask]
  rw [after_of_forall_not_mem (List.take 10 (List.drop 8 (hostOps0_1 (F := F)))) _ take0_col_kept,
    after_of_forall_not_mem (List.take 10 (List.drop 8 (hostOps0_1 (F := F)))) _
      (fun op hop => take0_table_kept op (List.mem_of_mem_drop (List.mem_of_mem_take hop))),
    after_of_forall_not_mem (List.take 8 (hostOps0_1 (F := F))) _
      (fun op hop => take0_table_kept op (List.mem_of_mem_take hop)),
    take0_col, hv1, ha]

end Cert.KernelIdeal.HostSide

end
-- ==== Proof.HostTake1.lean ====
/-
  The second gathered array as the kernel's region finds it: rows of the second table at the wrapped second index
  row, rows whose wrapped index is out of range filled.

  The stretch of 23 operations that forms it is read in three short segments, each over ANY contents found
  before it: the wrapped index column (operations 1–8), the range test of the wrapped column reduced to one bit a
  row (operations 9–18), and the gather, the test spread along the columns, the fill value and the selection
  (operations 19–23). A segment that does not write a buffer leaves it as it was.
-/
import proofs.«420539_j9405978378812_1_alg».proof.Proof.HostDefs

noncomputable section

namespace Cert.KernelIdeal.HostSide

open Cert.KernelIdeal Cert.KernelIdeal.Gen Idealize.ShloMosaic Idealize.ShloMosaic.TcCoe Idealize.ShloMosaic.Tactic
open Idealize.SL.Sem Idealize.ShloMosaic.StableHlo

variable {F : FTy → Type} [FloatOps F]
variable (m : (ℓ : Loc nD τ sig) → Buf (Elt F) ℓ)

/-- Operations 1–8: the wrapped index column, from the index row found before. -/
theorem take1_col (X : Valuation τ sig (Elt F)) :
    (after (List.take 8 (hostOps0_2 (F := F))) X (Proc.devRef .tc main_call1_v5) : IVec S1000000x1 32)
      = wrapped 50000#32 (X (Proc.devRef .tc main_v3)) := by
  simp only [hostOps0_2, List.take_succ_cons, List.take_zero]
  after_results_simp
  simp only [TRef.toBuf, TRef.ofBuf, cast_cast, cast_eq]

/-- Operations 9–18: the range test of the wrapped column, one bit a row. -/
theorem take1_mask (Y : Valuation τ sig (Elt F)) :
    (after (List.take 10 (List.drop 8 (hostOps0_2 (F := F)))) Y (Proc.devRef .tc main_call1_v12) : IVec S1000000 1)
      = Host.reduce IntOp.andi
          (andi (cmpi .sge (Y (Proc.devRef .tc main_call1_v5) : IVec S1000000x1 32) (broadcastInDim S1000000x1 ![] bcast_S_S1000000x1 (constantI S_ 32 0#32)))
            (cmpi .sle (Y (Proc.devRef .tc main_call1_v5) : IVec S1000000x1 32) (broadcastInDim S1000000x1 ![0, 1] bcast_S1x1_S1000000x1_0_1 (broadcastInDim S1x1 ![1] bcast_S1_S1x1_1 (constantI S1 32 49999#32)))))
          (constantI S_ 1 1#1) reducesTo_S1000000x1_S1000000_d1 h_S_ := by
  simp only [hostOps0_2, List.drop_succ_cons, List.drop_zero, List.take_succ_cons, List.take_zero]
  after_results_simp
  simp only [TRef.toBuf, TRef.ofBuf, cast_cast, cast_eq]

/-- Operations 19–23: the gather at the wrapped column, and the selection between it and the fill value. -/
theorem take1_fill (Z : Valuation τ sig (Elt F)) :
    (after (List.drop 10 (List.drop 8 (hostOps0_2 (F := F)))) Z (Proc.devRef .tc main_v5) : S1000000x128.Idx → Elt F .f32)
      = select (broadcastInDim S1000000x128 ![0] bcast_S1000000_S1000000x128_0 (Z (Proc.devRef .tc main_call1_v12) : IVec S1000000 1))
          (Host.gather gather_S50000x128_S1000000x1_S1000000x128_1_0_n_n_0_1_1128 (Z (Proc.devRef .tc main_arg1)) (Z (Proc.devRef .tc main_call1_v5)))
          (broadcastInDim S1000000x128 ![] bcast_S_S1000000x128 (constant (F := F) S_ .f32 0x7FC00000#32)) := by
  simp only [hostOps0_2, List.drop_succ_cons, List.drop_zero]
  after_results_simp
  simp only [TRef.toBuf, TRef.ofBuf, cast_cast, cast_eq]

/-- The table is written by no operation of the stretch … -/
theorem take1_table_kept : ∀ op ∈ (hostOps0_2 (F := F)), Proc.devRef .tc main_arg1 ∉ op.writes := by not_written

/-- … and the wrapped column by none of operations 9–18. -/
theorem take1_col_kept : ∀ op ∈ List.take 10 (List.drop 8 (hostOps0_2 (F := F))), Proc.devRef .tc main_call1_v5 ∉ op.writes := by
  not_written

set_option maxHeartbeats 1000000 in
/-- The gathered array as the region finds it: the rows of the table at the wrapped index column, rows whose wrapped
    index is out of range filled. -/
theorem found_v5 (c : Dev nD) :
    (V m c main_v5 : S1000000x128.Idx → Elt F .f32)
      = select (inRange 49999#32 (wrapped 50000#32 (idxRow1 (m ((c : Thread nD τ).loc main_arg2)))))
          (Host.gather gather_S50000x128_S1000000x1_S1000000x128_1_0_n_n_0_1_1128 (m ((c : Thread nD τ).loc main_arg1))
            (wrapped 50000#32 (idxRow1 (m ((c : Thread nD τ).loc main_arg2)))))
          (broadcastInDim S1000000x128 ![] bcast_S_S1000000x128 (constant (F := F) S_ .f32 0x7FC00000#32)) := by
  rw [V_stretches]
  rw [after_of_forall_not_mem hostOps0_3 _ (by not_written)]
  -- the index row, and the table untouched, after the first stretch
  have hv1 : (after hostOps0 (fun b => m (c, b)) (Proc.devRef .tc main_v3) : IVec S1000000 32)
      = idxRow1 (m ((c : Thread nD τ).loc main_arg2)) := by
    dsimp only [hostOps0]
    after_results
    rfl
  have ha : after hostOps0 (fun b => m (c, b)) (Proc.devRef .tc main_arg1) = m ((c : Thread nD τ).loc main_arg1) :=
    after_of_forall_not_mem hostOps0 _ (by not_written)
  generalize after hostOps0 (fun b => m (c, b)) = X0 at hv1 ha ⊢
  -- the first table's stretch writes neither the index row nor this table
  have hv1' : after hostOps0_1 X0 (Proc.devRef .tc main_v3) = X0 (Proc.devRef .tc main_v3) :=
    after_of_forall_not_mem hostOps0_1 _ (by not_written)
  have hb : after hostOps0_1 X0 (Proc.devRef .tc main_arg1) = X0 (Proc.devRef .tc main_arg1) :=
    after_of_forall_not_mem hostOps0_1 _ (by not_written)
  rw [← hv1'] at hv1
  rw [← hb] at ha
  clear hv1' hb
  generalize after hostOps0_1 X0 = X1 at hv1 ha ⊢
  -- the stretch in its three segments
  rw [← List.take_append_drop 8 (hostOps0_2 (F := F)), after_append,
    ← List.take_append_drop 10 (List.drop 8 (hostOps0_2 (F := F))), after_append]
  rw [take1_fill, take1_mask]
  rw [after_of_forall_not_mem (List.take 10 (List.drop 8 (hostOps0_2 (F := F)))) _ take1_col_kept,
    after_of_forall_not_mem (List.take 10 (List.drop 8 (hostOps0_2 (F := F)))) _
      (fun op hop => take1_table_kept op (List.mem_of_mem_drop (List.mem_of_mem_take hop))),
    after_of_forall_not_mem (List.take 8 (hostOps0_2 (F := F))) _
      (fun op hop => take1_table_kept op (List.mem_of_mem_take hop)),
    take1_col, hv1, ha]

end Cert.KernelIdeal.HostSide

end
-- ==== Proof.HostSlices.lean ====
/-
  The two weight blocks as the kernel's region finds them: the left and the right 128 columns of the 128 × 256
  first-layer matrix.
-/
import proofs.«420539_j9405978378812_1_alg».proof.Proof.HostDefs

noncomputable section

namespace Cert.KernelIdeal.HostSide

open Cert.KernelIdeal Cert.KernelIdeal.Gen Idealize.ShloMosaic Idealize.ShloMosaic.TcCoe Idealize.ShloMosaic.Tactic
open Idealize.SL.Sem Idealize.ShloMosaic.StableHlo

variable {F : FTy → Type} [FloatOps F]
variable (m : (ℓ : Loc nD τ sig) → Buf (Elt F) ℓ)

/-- The left and right weight blocks as the region finds them: columns 0–127 and 128–255 of the first-layer matrix. -/
theorem found_v6 (c : Dev nD) :
    (V m c main_v6 : S128x128.Idx → Elt F .f32)
      = extractStridedSlice S128x128 ![0, 0] (m ((c : Thread nD τ).loc main_arg3)) slices_S128x256_S128x128_0_0 := by
  rw [V_stretches]
  have ha : after hostOps0_2 (after hostOps0_1 (after hostOps0 (fun b => m (c, b)))) (Proc.devRef .tc main_arg3)
      = m ((c : Thread nD τ).loc main_arg3) := by
    rw [after_of_forall_not_mem hostOps0_2 _ (by not_written), after_of_forall_not_mem hostOps0_1 _ (by not_written),
      after_of_forall_not_mem hostOps0 _ (by not_written)]
  generalize after hostOps0_2 (after hostOps0_1 (after hostOps0 (fun b => m (c, b)))) = X at ha ⊢
  dsimp only [hostOps0_3]
  after_results
  rw [ha]

theorem found_v7 (c : Dev nD) :
    (V m c main_v7 : S128x128.Idx → Elt F .f32)
      = extractStridedSlice S128x128 ![0, 128] (m ((c : Thread nD τ).loc main_arg3)) slices_S128x256_S128x128_0_128 := by
  rw [V_stretches]
  have ha : after hostOps0_2 (after hostOps0_1 (after hostOps0 (fun b => m (c, b)))) (Proc.devRef .tc main_arg3)
      = m ((c : Thread nD τ).loc main_arg3) := by
    rw [after_of_forall_not_mem hostOps0_2 _ (by not_written), after_of_forall_not_mem hostOps0_1 _ (by not_written),
      after_of_forall_not_mem hostOps0 _ (by not_written)]
  generalize after hostOps0_2 (after hostOps0_1 (after hostOps0 (fun b => m (c, b)))) = X at ha ⊢
  dsimp only [hostOps0_3]
  after_results
  rw [ha]

end Cert.KernelIdeal.HostSide

end
-- ==== Proof.Body.lean ====
/-
  The idealized kernel's one pure term, read at one row of its single column, over the extended reals.

  The term scores a row r from two 128-wide rows u = x0[r, :] and v = x1[r, :]: hidden unit j is
      max( Σ_k u_k · x2[j, k]  +  Σ_k v_k · x3[j, k]  +  x4[j] , 0 )
  and the result is  Σ_j hidden_j · x5[0, j] + x6[0].
  Each matrix product contracts the left operand's columns against the rows of a TRANSPOSED weight matrix, so
  the weight is read at (j, k); products accumulate into a zero array, so the accumulator contributes nothing;
  narrowing to the 16-bit format is the identity on the extended reals; the bias rows are spread over all rows.
-/
import proofs.«420539_j9405978378812_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelBody

open Cert.KernelIdeal Cert.KernelIdeal.Gen Idealize.ShloMosaic Idealize.ShloMosaic.ValueIdx

/-! ## The two matrix products at an index

The operand indices of a product at output index (p, c) and contraction index k are (p, k) and (k, c): one
coordinate lemma per operand axis, then the sum re-indexed over `Fin 128`. -/

theorem lhs_wide_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_wide_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_wide_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_wide_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- An [8000,128] by [128,128] product into zero, at (p, c): Σ_k a(p,k) · b(k,c). -/
theorem matmul_wide_apply (a : FVec Ideal S8000x128 .bf16) (b : FVec Ideal S128x128 .bf16) (p : Fin 8000) (c : Fin 128) :
    matmul dot_S8000x128_S128x128_S8000x128_1_0_0_1_n_n none a b (constant (F := Ideal) S8000x128 .f32 0x00000000#32) (ix2 p c)
      = ∑ k : Fin 128, a (ix2 p k) * b (ix2 k c) := by
  show FloatOps.matmul dot_S8000x128_S128x128_S8000x128_1_0_0_1_n_n none a b (constant (F := Ideal) S8000x128 .f32 0x00000000#32) (ix2 p c) = _
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p c) ((contrEquiv1 dot_S8000x128_S128x128_S8000x128_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S8000x128_S128x128_S8000x128_1_0_0_1_n_n.rhsIdx (ix2 p c) ((contrEquiv1 dot_S8000x128_S128x128_S8000x128_1_0_0_1_n_n 128 rfl rfl).symm k) = ix2 k c := funext fun a => Fin.ext (by
    match a with
    | ⟨0, _⟩ => exact (rhs_wide_0 _ _).trans hk
    | ⟨1, _⟩ => exact rhs_wide_1 _ _)
  rw [el, er]

theorem lhs_col_0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem lhs_col_1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem rhs_col_0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem rhs_col_1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- An [8000,128] by [128,1] product into zero, at (p, c): Σ_k a(p,k) · b(k,c). -/
theorem matmul_col_apply (a : FVec Ideal S8000x128 .bf16) (b : FVec Ideal S128x1 .bf16) (p : Fin 8000) (c : Fin 1) :
    matmul dot_S8000x128_S128x1_S8000x1_1_0_0_1_n_n none a b (constant (F := Ideal) S8000x1 .f32 0x00000000#32) (ix2 p c)
      = ∑ k : Fin 128, a (ix2 p k) * b (ix2 k c) := by
  show FloatOps.matmul dot_S8000x128_S128x1_S8000x1_1_0_0_1_n_n none a b (constant (F := Ideal) S8000x1 .f32 0x00000000#32) (ix2 p c) = _
  rw [Ideal.matmul_constant_zero_apply, ← Equiv.sum_comp (contrEquiv1 dot_S8000x128_S128x1_S8000x1_1_0_0_1_n_n 128 rfl rfl).symm]
  refine Finset.sum_congr rfl fun k _ => ?_
  have hk := contrEquiv1_symm_val dot_S8000x128_S128x1_S8000x1_1_0_0_1_n_n 128 rfl rfl k
  have el : dot_S8000x128_S128x1_S8000x1_1_0_0_1_n_n.lhsIdx (ix2 p c) ((contrEquiv1 dot_S8000x128_S128x1_S8000x1_1_0_0_1_n_n 128 rfl rfl).symm k) = ix2 p k := funext fun a => Fin.ext (by
    match a with
    | ⟨0, _⟩ => exact lhs_col_0 _ _
    | ⟨1, _⟩ => exact (lhs_col_1 _ _).trans hk)
  have er : dot_S8000x128_S128x1_S8000x1_1_0_0_1_n_n.rhsIdx (ix2 p c) ((contrEquiv1 dot_S8000x128_S128x1_S8000x1_1_0_0_1_n_n 128 rfl rfl).symm k) = ix2 k c := funext fun a => Fin.ext (by
    match a with
    | ⟨0, _⟩ => exact (rhs_col_0 _ _).trans hk
    | ⟨1, _⟩ => exact rhs_col_1 _ _)
  rw [el, er]

/-! ## The first layer: a row against a transposed weight matrix -/

/-- One half of the first layer at (p, j): the row p of `a` against row j of `w` (the product is taken with
    `w` transposed; narrowing and the casts of a shape to itself change nothing). -/
theorem layer1_apply (a : FVec Ideal S8000x128 .f32) (w : FVec Ideal S128x128 .f32) (p : Fin 8000) (j : Fin 128) :
    matmul dot_S8000x128_S128x128_S8000x128_1_0_0_1_n_n none
        (truncf .bf16 (shapeCast S8000x128 a shapeCasts_S8000x128_S8000x128) bitsLt_bf16_f32)
        (transpose S128x128 [1, 0] (truncf .bf16 (shapeCast S128x128 w shapeCasts_S128x128_S128x128) bitsLt_bf16_f32)
          transposes_S128x128_p1_0_S128x128)
        (constant (F := Ideal) S8000x128 .f32 0x00000000#32) (ix2 p j)
      = ∑ k : Fin 128, a (ix2 p k) * w (ix2 j k) := by
  rw [matmul_wide_apply]
  refine Finset.sum_congr rfl fun k _ => ?_
  rw [transpose_ix2_apply, shapeCast_self, shapeCast_self]
  rfl

/-- The first bias, a [128] vector viewed [1,128] and spread over 8000 rows, at (p, j): its entry j. -/
theorem bias1_apply (b : FVec Ideal S128 .f32) (p : Fin 8000) (j : Fin 128) :
    broadcastTo S8000x128 (shapeCast S1x128 b shapeCasts_S128_S1x128) broadcasts_S1x128_S8000x128 (ix2 p j) = b (ix1 j) := by
  rw [broadcastTo_1b_ab_apply, shapeCast_a_1a_apply]

/-- The second bias, a [1] vector viewed [1,1] and spread over 8000 rows, at (p, 0): its one entry. -/
theorem bias2_apply (b : FVec Ideal S1 .f32) (p : Fin 8000) :
    broadcastTo S8000x1 (shapeCast S1x1 b shapeCasts_S1_S1x1) broadcasts_S1x1_S8000x1 (ix2 p (0 : Fin 1)) = b (ix1 (0 : Fin 1)) := by
  rw [broadcastTo_1b_ab_apply, shapeCast_a_1a_apply]

/-- The second layer's weights, a [1,128] row narrowed and transposed to a column, at (j, 0): its entry (0, j). -/
theorem weight2_apply (w : FVec Ideal S1x128 .f32) (j : Fin 128) :
    transpose S128x1 [1, 0] (truncf .bf16 w bitsLt_bf16_f32) transposes_S1x128_p1_0_S128x1 (ix2 j (0 : Fin 1)) = w (ix2 (0 : Fin 1) j) := by
  rw [transpose_ix2_apply]
  rfl

/-! ## The whole term at a row -/

theorem pay_at (x0 x1 : S8000x128.Idx → EReal) (x2 x3 : S128x128.Idx → EReal) (x4 : S128.Idx → EReal)
    (x5 : S1x128.Idx → EReal) (x6 : S1.Idx → EReal) (r : Fin 8000) :
    k0_pay1 (F := Ideal) x0 x1 x2 x3 x4 x5 x6 (ix2 r (0 : Fin 1))
      = (∑ j : Fin 128, max ((∑ k : Fin 128, x0 (ix2 r k) * x2 (ix2 j k)) + (∑ k : Fin 128, x1 (ix2 r k) * x3 (ix2 j k)) + x4 (ix1 j)) 0
            * x5 (ix2 (0 : Fin 1) j)) + x6 (ix1 (0 : Fin 1)) := by
  unfold k0_pay1
  -- the last sum: the second layer's product at (r, 0) plus the second bias
  refine (addf_apply _ _ _).trans ?_
  refine congrArg₂ (· + ·) ?_ (bias2_apply x6 r)
  refine (matmul_col_apply _ _ r 0).trans ?_
  refine Finset.sum_congr rfl fun j _ => ?_
  refine congrArg₂ (· * ·) ?_ (weight2_apply x5 j)
  -- hidden unit j: the rectified sum of the two half-products and the first bias
  refine (truncf_apply (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ (bias1_apply x4 r j)
  refine (addf_apply _ _ _).trans ?_
  exact congrArg₂ (· + ·) (layer1_apply x0 x2 r j) (layer1_apply x1 x3 r j)

end Cert.KernelBody

end
-- ==== Proof.Final.lean ====
/-
  From blocks to the array: what the kernel's result array holds after the run.

  The grid has 125 points; point t reads rows 8000·t … 8000·t + 7999 of the two gathered arrays (all 128
  columns) and the whole of the two weight blocks, the two biases and the second-layer row, and writes rows
  8000·t … 8000·t + 7999 of the one-column result. Row r of the block at point t is row 8000·t + r of the
  array, so what point t writes back is block t of ONE whole-array function — the edge score kernelScore of
  the arrays the region finds — and the 125 blocks cover the 1000000 rows (row e lies in block e / 8000).
-/
import proofs.«420539_j9405978378812_1_alg».proof.Proof.Gen.KernelIdeal.Value
import proofs.«420539_j9405978378812_1_alg».proof.Proof.Body
import Idealize.ShloMosaic.Lib.ValueIdx

noncomputable section

open scoped BigOperators

namespace Cert.KernelIdeal.Final

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.KernelBody (pay_at)

/-- The edge score with the first layer's weights given as two 128 × 128 blocks: for the edge in row e,
    Σ_j relu(Σ_k U[e,k]·Wa[j,k] + Σ_k M[e,k]·Wb[j,k] + b1[j]) · w2[0,j] + b2[0]. -/
def kernelScore (U M : S1000000x128.Idx → EReal) (Wa Wb : S128x128.Idx → EReal) (b1 : S128.Idx → EReal)
    (w2 : S1x128.Idx → EReal) (b2 : S1.Idx → EReal) : S1000000x1.Idx → EReal :=
  fun i => (∑ j : Fin 128, max ((∑ k : Fin 128, U (ix2 (⟨(i 0).val, (i 0).isLt⟩ : Fin 1000000) k) * Wa (ix2 j k))
      + (∑ k : Fin 128, M (ix2 (⟨(i 0).val, (i 0).isLt⟩ : Fin 1000000) k) * Wb (ix2 j k)) + b1 (ix1 j)) 0 * w2 (ix2 (0 : Fin 1) j))
    + b2 (ix1 (0 : Fin 1))

/-- The body's arithmetic on a block whose rows are rows of the arrays is the score at that row. -/
theorem score_of_rows (x0 x1 : S8000x128.Idx → EReal) (x2 x3 : S128x128.Idx → EReal) (x4 : S128.Idx → EReal)
    (x5 : S1x128.Idx → EReal) (x6 : S1.Idx → EReal)
    (U M : S1000000x128.Idx → EReal) (r : Fin 8000) (e : Fin 1000000)
    (h0 : ∀ k : Fin 128, x0 (ix2 r k) = U (ix2 e k)) (h1 : ∀ k : Fin 128, x1 (ix2 r k) = M (ix2 e k)) :
    (∑ j : Fin 128, max ((∑ k : Fin 128, x0 (ix2 r k) * x2 (ix2 j k)) + (∑ k : Fin 128, x1 (ix2 r k) * x3 (ix2 j k)) + x4 (ix1 j)) 0
          * x5 (ix2 (0 : Fin 1) j)) + x6 (ix1 (0 : Fin 1))
      = kernelScore U M x2 x3 x4 x5 x6 (ix2 e (0 : Fin 1)) := by
  unfold kernelScore
  simp only [h0, h1]

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows move with the point, the others stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem N_eq : cfg0.N = 125 := N_0

/-! ## Reading a window's block, for any array -/

section Reads

variable {F : FTy → Type} [FloatOps F]

/-- An entry of the first row window's block at point t sits in its array 8000·t rows further down. -/
theorem read_rows0 (A : Vec F S1000000x128 .f32) (t : Fin cfg0.N) (y : S8000x128.Idx) (i : S1000000x128.Idx)
    (h0 : (i 0).val = t.val * 8000 + (y 0).val) (h1 : (i 1).val = (y 1).val) :
    ((cfg0.win 0).blk t).view.read (Elt F) A y = A i := by
  show A (((cfg0.win 0).blk t).view.emb y) = A i
  refine congrArg A (funext fun a => Fin.ext ?_)
  obtain ⟨e0, e1, -⟩ := idx_facts t
  match a with
  | ⟨0, _⟩ => show win0_0.index t (0 : Fin 2) * 8000 + 1 * (y 0).val = (i 0).val; omega
  | ⟨1, _⟩ => show win0_0.index t (1 : Fin 2) * 128 + 1 * (y 1).val = (i 1).val; omega

/-- The same for the second row window. -/
theorem read_rows1 (A : Vec F S1000000x128 .f32) (t : Fin cfg0.N) (y : S8000x128.Idx) (i : S1000000x128.Idx)
    (h0 : (i 0).val = t.val * 8000 + (y 0).val) (h1 : (i 1).val = (y 1).val) :
    ((cfg0.win 1).blk t).view.read (Elt F) A y = A i := by
  show A (((cfg0.win 1).blk t).view.emb y) = A i
  refine congrArg A (funext fun a => Fin.ext ?_)
  obtain ⟨-, -, e0, e1, -⟩ := idx_facts t
  match a with
  | ⟨0, _⟩ => show win0_1.index t (0 : Fin 2) * 8000 + 1 * (y 0).val = (i 0).val; omega
  | ⟨1, _⟩ => show win0_1.index t (1 : Fin 2) * 128 + 1 * (y 1).val = (i 1).val; omega

/-- The output window's block likewise. -/
theorem read_out (G : Vec F S1000000x1 .f32) (t : Fin cfg0.N) (y : S8000x1.Idx) (i : S1000000x1.Idx)
    (h0 : (i 0).val = t.val * 8000 + (y 0).val) (h1 : (i 1).val = (y 1).val) :
    ((cfg0.win 7).blk t).view.read (Elt F) G y = G i := by
  show G (((cfg0.win 7).blk t).view.emb y) = G i
  refine congrArg G (funext fun a => Fin.ext ?_)
  obtain ⟨-, -, -, -, -, -, -, -, -, -, -, -, e0, e1⟩ := idx_facts t
  match a with
  | ⟨0, _⟩ => show win0_7.index t (0 : Fin 2) * 8000 + 1 * (y 0).val = (i 0).val; omega
  | ⟨1, _⟩ => show win0_7.index t (1 : Fin 2) * 1 + 1 * (y 1).val = (i 1).val; omega

/-- The windows whose one block is their whole array read the array itself. -/
theorem read_whole2 (A : Vec F S128x128 .f32) (t : Fin cfg0.N) : ((cfg0.win 2).blk t).view.read (Elt F) A = A := by
  funext y
  show A (((cfg0.win 2).blk t).view.emb y) = A y
  refine congrArg A (funext fun a => Fin.ext ?_)
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem read_whole3 (A : Vec F S128x128 .f32) (t : Fin cfg0.N) : ((cfg0.win 3).blk t).view.read (Elt F) A = A := by
  funext y
  show A (((cfg0.win 3).blk t).view.emb y) = A y
  refine congrArg A (funext fun a => Fin.ext ?_)
  obtain ⟨-, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read_whole4 (A : Vec F S128 .f32) (t : Fin cfg0.N) : ((cfg0.win 4).blk t).view.read (Elt F) A = A := by
  funext y
  show A (((cfg0.win 4).blk t).view.emb y) = A y
  refine congrArg A (funext fun a => Fin.ext ?_)
  obtain ⟨-, -, -, -, -, -, -, -, e0, -⟩ := idx_facts t
  match a with
  | ⟨0, _⟩ => show win0_4.index t (0 : Fin 1) * 128 + 1 * (y 0).val = (y 0).val; omega

theorem read_whole5 (A : Vec F S1x128 .f32) (t : Fin cfg0.N) : ((cfg0.win 5).blk t).view.read (Elt F) A = A := by
  funext y
  show A (((cfg0.win 5).blk t).view.emb y) = A y
  refine congrArg A (funext fun a => Fin.ext ?_)
  obtain ⟨-, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem read_whole6 (A : Vec F S1 .f32) (t : Fin cfg0.N) : ((cfg0.win 6).blk t).view.read (Elt F) A = A := by
  funext y
  show A (((cfg0.win 6).blk t).view.emb y) = A y
  refine congrArg A (funext fun a => Fin.ext ?_)
  obtain ⟨-, -, -, -, -, -, -, -, -, -, -, e0, -⟩ := idx_facts t
  match a with
  | ⟨0, _⟩ => show win0_6.index t (0 : Fin 1) * 1 + 1 * (y 0).val = (y 0).val; omega

end Reads

/-! ## What each point writes back, the cover, the array -/

section Flush

variable (m : (ℓ : Loc nD τ sig) → Buf (Elt Ideal) ℓ)

/-- The arithmetic of the body at point t, for ANY arrays behind the seven input windows: row r of the block
    is the score at row 8000·t + r. -/
theorem body_is_score (A0 A1 : Vec Ideal S1000000x128 .f32) (A2 A3 : Vec Ideal S128x128 .f32) (A4 : Vec Ideal S128 .f32)
    (A5 : Vec Ideal S1x128 .f32) (A6 : Vec Ideal S1 .f32) (t : Fin cfg0.N) (r : Fin 8000) (e : Fin 1000000)
    (he : e.val = t.val * 8000 + r.val) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (ix2 r (0 : Fin 1))
      = kernelScore A0 A1 A2 A3 A4 A5 A6 (ix2 e (0 : Fin 1)) := by
  rw [read_whole2, read_whole3, read_whole4, read_whole5, read_whole6]
  refine (pay_at _ _ A2 A3 A4 A5 A6 r).trans ?_
  exact score_of_rows _ _ A2 A3 A4 A5 A6 A0 A1 r e
    (fun k => read_rows0 A0 t (ix2 r k) (ix2 e k) he rfl) (fun k => read_rows1 A1 t (ix2 r k) (ix2 e k) he rfl)

set_option maxHeartbeats 2000000 in
/-- WHAT POINT t WRITES BACK is block t of the edge score of the arrays the region finds. -/
theorem flushed_eq (c : Dev nD) (t : Fin cfg0.N) :
    (dats m 0 c).flushed 7 t = ((cfg0.win 7).blk t).view.read (Elt Ideal)
      (kernelScore (V m c main_v4) (V m c main_v5) (V m c main_v6) (V m c main_v7) (V m c main_arg4) (V m c main_arg5) (V m c main_arg6)) := by
  rw [flushed7]
  unfold out0_7
  rw [View.canon_unit_zero hz2]
  simp only [View.ld_unit_zero (S := S8000x128) hz2, View.ld_unit_zero (S := S128x128) hz2, View.ld_unit_zero (S := S128) hz1,
    View.ld_unit_zero (S := S1x128) hz2, View.ld_unit_zero (S := S1) hz1]
  have e0 : iblk m c 0 t = ((cfg0.win 0).blk t).view.read (Elt Ideal) (V m c main_v4) := rfl
  have e1 : iblk m c 1 t = ((cfg0.win 1).blk t).view.read (Elt Ideal) (V m c main_v5) := rfl
  have e2 : iblk m c 2 t = ((cfg0.win 2).blk t).view.read (Elt Ideal) (V m c main_v6) := rfl
  have e3 : iblk m c 3 t = ((cfg0.win 3).blk t).view.read (Elt Ideal) (V m c main_v7) := rfl
  have e4 : iblk m c 4 t = ((cfg0.win 4).blk t).view.read (Elt Ideal) (V m c main_arg4) := rfl
  have e5 : iblk m c 5 t = ((cfg0.win 5).blk t).view.read (Elt Ideal) (V m c main_arg5) := rfl
  have e6 : iblk m c 6 t = ((cfg0.win 6).blk t).view.read (Elt Ideal) (V m c main_arg6) := rfl
  rw [e0, e1, e2, e3, e4, e5, e6]
  clear e0 e1 e2 e3 e4 e5 e6
  generalize V m c main_v4 = A0
  generalize V m c main_v5 = A1
  generalize V m c main_v6 = A2
  generalize V m c main_v7 = A3
  generalize V m c main_arg4 = A4
  generalize V m c main_arg5 = A5
  generalize V m c main_arg6 = A6
  funext y
  obtain ⟨r, q, rfl⟩ : ∃ (r : Fin 8000) (q : Fin 1), y = ix2 r q := ⟨y 0, y 1, eq_ix2 y⟩
  have hq : q = 0 := Subsingleton.elim _ _
  subst hq
  have ht : t.val < 125 := lt_of_lt_of_eq t.isLt N_eq
  have hlt : t.val * 8000 + r.val < 1000000 := by have := r.isLt; omega
  refine Eq.trans ?_ (read_out (F := Ideal) (kernelScore A0 A1 A2 A3 A4 A5 A6) t (ix2 r (0 : Fin 1))
    (ix2 (⟨t.val * 8000 + r.val, hlt⟩ : Fin 1000000) (0 : Fin 1)) rfl rfl).symm
  exact body_is_score A0 A1 A2 A3 A4 A5 A6 t r ⟨t.val * 8000 + r.val, hlt⟩ rfl

/-- An index of the result array is in point t's block iff each coordinate is in the block's range on its axis. -/
theorem mem_blk (t : Fin cfg0.N) (i : S1000000x1.Idx) :
    i ∈ ((cfg0.win 7).blk t).view.set ↔ ∀ a : Fin 2, win0_7.index t a * S8000x1.size a ≤ (i a).val ∧ (i a).val < win0_7.index t a * S8000x1.size a + S8000x1.size a := by
  show i ∈ ((View.whole main_v8).slice (win0_7.rect t)).set ↔ _
  rw [View.set_slice_whole, Rect.mem_set_unit]
  exact Iff.rfl

/-- Every row of the result lies in some point's block: row e in block e / 8000. -/
theorem cover (i : S1000000x1.Idx) : ∃ t : Fin cfg0.N, (cfg0.win 7).flush t = true ∧ i ∈ ((cfg0.win 7).blk t).view.set := by
  have hi0 : (i 0).val < 1000000 := (i 0).isLt
  have hi1 : (i 1).val < 1 := (i 1).isLt
  have hN : (i 0).val / 8000 < cfg0.N := by rw [N_eq]; omega
  refine ⟨⟨(i 0).val / 8000, hN⟩, flush0_7 _, ?_⟩
  rw [mem_blk]
  obtain ⟨-, -, -, -, -, -, -, -, -, -, -, -, e0, e1⟩ := idx_facts ⟨(i 0).val / 8000, hN⟩
  intro a
  match a with
  | ⟨0, _⟩ =>
    show win0_7.index ⟨(i 0).val / 8000, hN⟩ (0 : Fin 2) * 8000 ≤ (i 0).val ∧ (i 0).val < win0_7.index ⟨(i 0).val / 8000, hN⟩ (0 : Fin 2) * 8000 + 8000
    rw [e0]
    show (i 0).val / 8000 * 8000 ≤ (i 0).val ∧ (i 0).val < (i 0).val / 8000 * 8000 + 8000
    omega
  | ⟨1, _⟩ =>
    show win0_7.index ⟨(i 0).val / 8000, hN⟩ (1 : Fin 2) * 1 ≤ (i 1).val ∧ (i 1).val < win0_7.index ⟨(i 0).val / 8000, hN⟩ (1 : Fin 2) * 1 + 1
    rw [e1]
    omega

/-- THE RESULT ARRAY after the run is the edge score of the arrays the region finds. -/
theorem final (c : Dev nD) :
    (dats m 0 c).arrAt 7 cfg0.N = kernelScore (V m c main_v4) (V m c main_v5) (V m c main_v6) (V m c main_v7) (V m c main_arg4) (V m c main_arg5) (V m c main_arg6) :=
  (dats m 0 c).arrAt_eq_of_cover 7 _ (fun t _ => flushed_eq m c t) cover

end Flush

end Cert.KernelIdeal.Final

end
-- ==== Proof.Spec.lean ====
/-
  The edge score as one function, index by index, over the extended reals.

  For edge e the two gathered rows u = U[e, :] and v = M[e, :] (128 entries each) are scored by a two-layer
  perceptron over their concatenation: hidden unit j is
      relu( Σ_k u_k · W[j, k]  +  Σ_k v_k · W[j, 128 + k]  +  b1[j] )
  and the score is  Σ_j hidden_j · w2[0, j] + b2[0].
  The first layer's weight matrix W is 128 × 256; its left half multiplies the first row, its right half the
  second. A sum over the 256 columns of a concatenated row is the sum over the left 128 plus the sum over the
  right 128 (sum_halves): addition of extended reals is commutative and associative, which is all this uses.
-/
import Idealize.ShloMosaic.PureOps.Ideal
import Idealize.ShloMosaic.Lib.ValueIdx

noncomputable section

open scoped BigOperators

namespace Cert.Spec

open Idealize.ShloMosaic Idealize.ShloMosaic.ValueIdx

/-- Column k of the left half of a 256-wide row. -/
def lo (k : Fin 128) : Fin 256 := ⟨k.val, by omega⟩
/-- Column k of the right half of a 256-wide row. -/
def hi (k : Fin 128) : Fin 256 := ⟨128 + k.val, by omega⟩

@[simp] theorem lo_val (k : Fin 128) : (lo k).val = k.val := rfl
@[simp] theorem hi_val (k : Fin 128) : (hi k).val = 128 + k.val := rfl

/-- A sum over 256 columns is the sum over the left half plus the sum over the right half. -/
theorem sum_halves {M : Type*} [AddCommMonoid M] (f : Fin 256 → M) :
    ∑ k : Fin 256, f k = (∑ k : Fin 128, f (lo k)) + ∑ k : Fin 128, f (hi k) := by
  exact Fin.sum_univ_add (a := 128) (b := 128) (f : Fin (128 + 128) → M)

abbrev Rows : Shape := ⟨2, ![1000000, 128]⟩
abbrev Wt : Shape := ⟨2, ![128, 256]⟩
abbrev Bias1 : Shape := ⟨1, ![128]⟩
abbrev Row2 : Shape := ⟨2, ![1, 128]⟩
abbrev Bias2 : Shape := ⟨1, ![1]⟩
abbrev Out : Shape := ⟨2, ![1000000, 1]⟩

/-- Hidden unit j of edge e: the rectified affine form of the two gathered rows. -/
def hidden (U M : Rows.Idx → EReal) (W : Wt.Idx → EReal) (b1 : Bias1.Idx → EReal) (e : Fin 1000000) (j : Fin 128) : EReal :=
  max ((∑ k : Fin 128, U (ix2 e k) * W (ix2 j (lo k))) + (∑ k : Fin 128, M (ix2 e k) * W (ix2 j (hi k))) + b1 (ix1 j)) 0

/-- The score of every edge: the second layer over the hidden units. -/
def score (U M : Rows.Idx → EReal) (W : Wt.Idx → EReal) (b1 : Bias1.Idx → EReal) (w2 : Row2.Idx → EReal)
    (b2 : Bias2.Idx → EReal) : Out.Idx → EReal :=
  fun i => (∑ j : Fin 128, hidden U M W b1 ⟨(i 0).val, (i 0).isLt⟩ j * w2 (ix2 (0 : Fin 1) j)) + b2 (ix1 (0 : Fin 1))

end Cert.Spec

end
-- ==== Proof.Bridge.lean ====
/-
  The kernel's score, written with the first layer's weights as two 128 × 128 blocks, is the specification's
  score with the whole 128 × 256 matrix when the blocks are its left and right halves: entry (j, k) of the left
  block is W[j, k], entry (j, k) of the right block is W[j, 128 + k].
-/
import proofs.«420539_j9405978378812_1_alg».proof.Proof.Final
import proofs.«420539_j9405978378812_1_alg».proof.Proof.Spec
import Idealize.ShloMosaic.Lib.Pipeline.Value

noncomputable section

open scoped BigOperators

namespace Cert.KernelIdeal.Bridge

open Cert.KernelIdeal Cert.KernelIdeal.Gen Idealize.ShloMosaic Idealize.ShloMosaic.ValueIdx

/-- The left half of the first-layer matrix at (j, k). -/
theorem left_half (W : S128x256.Idx → EReal) (j k : Fin 128) :
    extractStridedSlice S128x128 ![0, 0] W slices_S128x256_S128x128_0_0 (ix2 j k) = W (ix2 j (Cert.Spec.lo k)) :=
  extractStridedSlice_apply _ _ _ _ _ (fun a => by
    match a with
    | ⟨0, _⟩ => exact (Nat.zero_add _).symm
    | ⟨1, _⟩ => exact (Nat.zero_add _).symm)

/-- The right half of the first-layer matrix at (j, k). -/
theorem right_half (W : S128x256.Idx → EReal) (j k : Fin 128) :
    extractStridedSlice S128x128 ![0, 128] W slices_S128x256_S128x128_0_128 (ix2 j k) = W (ix2 j (Cert.Spec.hi k)) :=
  extractStridedSlice_apply _ _ _ _ _ (fun a => by
    match a with
    | ⟨0, _⟩ => exact (Nat.zero_add _).symm
    | ⟨1, _⟩ => rfl)

/-- With the two blocks the halves of W, the kernel's score is the specification's. -/
theorem kernelScore_of_halves (U M : S1000000x128.Idx → EReal) (W : S128x256.Idx → EReal) (b1 : S128.Idx → EReal)
    (w2 : S1x128.Idx → EReal) (b2 : S1.Idx → EReal) :
    Final.kernelScore U M (extractStridedSlice S128x128 ![0, 0] W slices_S128x256_S128x128_0_0)
        (extractStridedSlice S128x128 ![0, 128] W slices_S128x256_S128x128_0_128) b1 w2 b2
      = Cert.Spec.score U M W b1 w2 b2 := by
  funext i
  unfold Final.kernelScore Cert.Spec.score Cert.Spec.hidden
  simp only [left_half, right_half]

end Cert.KernelIdeal.Bridge

end
-- ==== Proof.RefSide.lean ====
/-
  The reference program's result is the edge score of the two gathered arrays.

  At index i (edge e = i 0, the one column) the reference computes
      Σ_{j<128} max( Σ_{k<256} cat[e,k] · W[j,k] + b1[j], 0 ) · w2[0,j] + b2[0],
  where cat is the two gathered arrays side by side: column k < 128 comes from the first, column 128 + k from the
  second. The sum over the 256 columns splits into its two halves (addition of extended reals is commutative and
  associative; nothing else is used), each half reads one gathered array, and what is left is the score's own
  expression. The two gathers are kept whole: nothing here looks inside them.
-/
import proofs.«420539_j9405978378812_1_alg».proof.Proof.Gen.ReferenceIdeal.Read
import proofs.«420539_j9405978378812_1_alg».proof.Proof.Spec

noncomputable section

open scoped BigOperators

namespace Cert.RefSide

open Cert.ReferenceIdeal Cert.ReferenceIdeal.Gen Idealize.ShloMosaic Idealize.ShloMosaic.ValueIdx

/-- The concatenation at a column of the left half reads the first gathered array at that column. -/
theorem cat_lo (x0 : S100000x128.Idx → EReal) (x1 : S50000x128.Idx → EReal) (x2 : IVec S2x1000000 32)
    (j : S1000000x256.Idx) (e : Fin 1000000) (k : Fin 128) (h0 : (j 0).val = e.val) (h1 : (j 1).val = k.val) :
    Read.val_main_v18 (F := Ideal) x0 x1 x2 j = Read.val_main_v8 (F := Ideal) x0 x2 (ix2 e k) := by
  unfold Read.val_main_v18
  exact concatenate_pair_apply_left (t := S1000000x256) (s₁ := S1000000x128) (s₂ := S1000000x128) 1 _ _ _ j rfl (ix2 e k) (fun b => by
    match b with
    | ⟨0, _⟩ => exact h0.symm
    | ⟨1, _⟩ => exact h1.symm)

/-- The concatenation at a column of the right half reads the second gathered array, 128 columns to the left. -/
theorem cat_hi (x0 : S100000x128.Idx → EReal) (x1 : S50000x128.Idx → EReal) (x2 : IVec S2x1000000 32)
    (j : S1000000x256.Idx) (e : Fin 1000000) (k : Fin 128) (h0 : (j 0).val = e.val) (h1 : (j 1).val = 128 + k.val) :
    Read.val_main_v18 (F := Ideal) x0 x1 x2 j = Read.val_main_v17 (F := Ideal) x1 x2 (ix2 e k) := by
  unfold Read.val_main_v18
  exact concatenate_pair_apply_right (t := S1000000x256) (s₁ := S1000000x128) (s₂ := S1000000x128) 1 _ _ _ j rfl rfl (ix2 e k)
    (fun b hb => by
      match b with
      | ⟨0, _⟩ => exact h0.symm
      | ⟨1, _⟩ => exact absurd rfl hb)
    (by show k.val + 128 = (j 1).val; omega)

/-- Hidden unit j of edge i 0, as the reference computes it, is the specification's hidden unit. -/
theorem hidden_eq (x0 : S100000x128.Idx → EReal) (x1 : S50000x128.Idx → EReal) (x2 : IVec S2x1000000 32)
    (x3 : S128x256.Idx → EReal) (x4 : S128.Idx → EReal) (i : S1000000x1.Idx) (j : Fin 128) :
    Read.val_main_v24 (F := Ideal) x0 x1 x2 x3 x4 (Read.lidx_main_v26 i j)
      = Cert.Spec.hidden (Read.val_main_v8 (F := Ideal) x0 x2) (Read.val_main_v17 (F := Ideal) x1 x2) x3 x4
          ⟨(i 0).val, (i 0).isLt⟩ j := by
  rw [Read.val_main_v24_apply, Read.val_main_v23_apply, Read.val_main_v20_apply, Read.val_main_v22_apply,
    Read.val_main_v21_apply, Read.val_main_call0_v0_apply, Read.val_main_call0_cst_apply, Cert.Spec.sum_halves]
  unfold Cert.Spec.hidden
  -- the transposed weight at (column, unit) is W at (unit, column); the twice-broadcast bias at unit j is b1 j
  have eW : ∀ c : Fin 256, Read.idx_main_v19 (Read.ridx_main_v20 (Read.lidx_main_v26 i j) c) = ix2 j c := fun c =>
    funext fun a => Fin.ext (by
      match a with
      | ⟨0, _⟩ => rfl
      | ⟨1, _⟩ => rfl)
  have eb : Read.idx_main_v21 (Read.idx_main_v22 (Read.lidx_main_v26 i j)) = ix1 j :=
    funext fun a => Fin.ext (by
      match a with
      | ⟨0, _⟩ => rfl)
  -- the concatenated row at a column of either half
  have clo : ∀ k : Fin 128,
      Read.val_main_v18 (F := Ideal) x0 x1 x2 (Read.lidx_main_v20 (Read.lidx_main_v26 i j) (Cert.Spec.lo k))
        = Read.val_main_v8 (F := Ideal) x0 x2 (ix2 ⟨(i 0).val, (i 0).isLt⟩ k) :=
    fun k => cat_lo x0 x1 x2 _ _ k rfl rfl
  have chi : ∀ k : Fin 128,
      Read.val_main_v18 (F := Ideal) x0 x1 x2 (Read.lidx_main_v20 (Read.lidx_main_v26 i j) (Cert.Spec.hi k))
        = Read.val_main_v17 (F := Ideal) x1 x2 (ix2 ⟨(i 0).val, (i 0).isLt⟩ k) :=
    fun k => cat_hi x0 x1 x2 _ _ k rfl rfl
  simp only [Ideal.maximumf_def, Ideal.addf_def, Ideal.ofBits_def, Ideal.ofBits_zero_f32, Read.val_main_v19_apply,
    eW, eb, clo, chi]

/-- The reference's result, as a function of its arguments, is the score of the two gathered arrays: index by index
    the second layer over the hidden units, plus the second bias. -/
theorem ref_is_score (x0 : S100000x128.Idx → EReal) (x1 : S50000x128.Idx → EReal) (x2 : IVec S2x1000000 32)
    (x3 : S128x256.Idx → EReal) (x4 : S128.Idx → EReal) (x5 : S1x128.Idx → EReal) (x6 : S1.Idx → EReal) :
    Read.val_main_v29 (F := Ideal) x0 x1 x2 x3 x4 x5 x6
      = Cert.Spec.score (Read.val_main_v8 (F := Ideal) x0 x2) (Read.val_main_v17 (F := Ideal) x1 x2) x3 x4 x5 x6 := by
  funext i
  rw [Read.val_main_v29_apply, Read.val_main_v26_apply, Read.val_main_v28_apply, Read.val_main_v27_apply]
  unfold Cert.Spec.score
  -- the transposed second-layer row at (unit, the one column) is w2 at (0, unit); the twice-broadcast b2 is b2 0
  have ew : ∀ k : Fin 128, Read.idx_main_v25 (Read.ridx_main_v26 i k) = ix2 (0 : Fin 1) k := fun k =>
    funext fun a => Fin.ext (by
      match a with
      | ⟨0, _⟩ => show (i 1).val = 0; have h : (i 1).val < 1 := (i 1).isLt; omega
      | ⟨1, _⟩ => rfl)
  have eb : Read.idx_main_v27 (Read.idx_main_v28 i) = ix1 (0 : Fin 1) :=
    funext fun a => Fin.ext (by
      match a with
      | ⟨0, _⟩ => rfl)
  simp only [Ideal.addf_def, hidden_eq, Read.val_main_v25_apply, ew, eb]

end Cert.RefSide

end
-- ==== Proof.lean ====
/-
  The edge-score kernel against its reference: the certificate's five claims.

  Both programs gather one row of each embedding table per edge (the first table at the first index row, the
  second at the second), and score the pair of rows with a two-layer perceptron over their concatenation:
      score(e) = Σ_j relu( Σ_k U[e,k]·W[j,k] + Σ_k M[e,k]·W[j,128+k] + b1[j] ) · w2[0,j] + b2[0].
  The reference concatenates the two gathered arrays and multiplies by the whole 128 × 256 matrix; the kernel
  multiplies the two gathered arrays by the matrix's left and right halves and adds, 8000 edges at a grid point.
  Over the extended reals the two agree by splitting the 256-term sum into its halves; narrowing to the 16-bit
  format is the identity there.

  The two differ only in what an index outside the table does: the reference's gather clamps it, the kernel's
  replaces the row by a fill value. Under the precondition — every index in [−n, n) for its table of n rows,
  the range in which an index names a row — the wrapped index lies in [0, n − 1], neither the clamp nor the
  fill acts, and both gathers read the same rows.
-/
import proofs.«420539_j9405978378812_1_alg».proof.Defs
import proofs.«420539_j9405978378812_1_alg».proof.Proof.Gen.Kernel
import proofs.«420539_j9405978378812_1_alg».proof.Proof.Gen.Kernel.Skeleton
import proofs.«420539_j9405978378812_1_alg».proof.Proof.Gen.Kernel.Launch
import proofs.«420539_j9405978378812_1_alg».proof.Proof.Gen.Kernel.Points
import proofs.«420539_j9405978378812_1_alg».proof.Proof.Gen.Kernel.Frame
import proofs.«420539_j9405978378812_1_alg».proof.Proof.Gen.KernelIdeal
import proofs.«420539_j9405978378812_1_alg».proof.Proof.Gen.KernelIdeal.Skeleton
import proofs.«420539_j9405978378812_1_alg».proof.Proof.Gen.KernelIdeal.Launch
import proofs.«420539_j9405978378812_1_alg».proof.Proof.Gen.KernelIdeal.Points
import proofs.«420539_j9405978378812_1_alg».proof.Proof.Gen.KernelIdeal.Frame
import proofs.«420539_j9405978378812_1_alg».proof.Proof.Gen.ReferenceIdeal
import proofs.«420539_j9405978378812_1_alg».proof.Proof.Gen.Pre_finite_inputs
import proofs.«420539_j9405978378812_1_alg».proof.Proof.Gen.KernelIdeal.Value
import proofs.«420539_j9405978378812_1_alg».proof.Proof.Gen.ReferenceIdeal.Run
import proofs.«420539_j9405978378812_1_alg».proof.Proof.Gen.ReferenceIdeal.Read
import proofs.«420539_j9405978378812_1_alg».proof.Proof.Domain
import proofs.«420539_j9405978378812_1_alg».proof.Proof.TakeFill
import proofs.«420539_j9405978378812_1_alg».proof.Proof.HostTake0
import proofs.«420539_j9405978378812_1_alg».proof.Proof.HostTake1
import proofs.«420539_j9405978378812_1_alg».proof.Proof.HostSlices
import proofs.«420539_j9405978378812_1_alg».proof.Proof.Final
import proofs.«420539_j9405978378812_1_alg».proof.Proof.Bridge
import proofs.«420539_j9405978378812_1_alg».proof.Proof.RefSide
import Idealize.ShloMosaic.Adequacy
import Idealize.ShloMosaic.Init

noncomputable section

namespace Cert.Proof

open Idealize.ShloMosaic Idealize.ShloMosaic.TcCoe Idealize.SL.Sem

/-! ## The kernel's result array under the precondition -/

section KernelSide

open Cert.KernelIdeal Cert.KernelIdeal.Gen Cert.KernelIdeal.HostSide

variable (m : (ℓ : Loc nD τ sig) → Buf (Elt Ideal) ℓ)

/-- The precondition at device c, as the printed predicate of the seven argument arrays. -/
abbrev PreAt (c : Dev nD) : Prop :=
  Cert.Pre_finite_inputs.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = fun _ => 1#1

/-- With the first index row in [−100000, 100000), the first gathered array is the plain row gather. -/
theorem gathered_first (c : Dev nD) (hpre : PreAt m c) :
    (V m c main_v4 : S1000000x128.Idx → EReal)
      = Host.gather gather_S100000x128_S1000000x1_S1000000x128_1_0_n_n_0_1_1128 (m ((c : Thread nD τ).loc main_arg0))
          (wrapped 100000#32 (idxRow0 (m ((c : Thread nD τ).loc main_arg2)))) := by
  rw [found_v4]
  exact Cert.TakeFill.fill_select_eq bcast_S_S1000000 bcast_S1000000_S1000000x1_0 bcast_S_S1000000x1 bcast_S1_S1x1_1
    bcast_S1x1_S1000000x1_0_1 reducesTo_S1000000x1_S1000000_d1 h_S_ bcast_S1000000_S1000000x128_0
    100000 4294867296#32 100000#32 99999#32 (by decide) (by decide) (by decide) (by decide) _
    (Cert.Domain.index_bounds _ _ _ _ _ _ _ hpre).1 _ _

/-- With the second index row in [−50000, 50000), the second gathered array is the plain row gather. -/
theorem gathered_second (c : Dev nD) (hpre : PreAt m c) :
    (V m c main_v5 : S1000000x128.Idx → EReal)
      = Host.gather gather_S50000x128_S1000000x1_S1000000x128_1_0_n_n_0_1_1128 (m ((c : Thread nD τ).loc main_arg1))
          (wrapped 50000#32 (idxRow1 (m ((c : Thread nD τ).loc main_arg2)))) := by
  rw [found_v5]
  exact Cert.TakeFill.fill_select_eq bcast_S_S1000000 bcast_S1000000_S1000000x1_0 bcast_S_S1000000x1 bcast_S1_S1x1_1
    bcast_S1x1_S1000000x1_0_1 reducesTo_S1000000x1_S1000000_d1 h_S_ bcast_S1000000_S1000000x128_0
    50000 4294917296#32 50000#32 49999#32 (by decide) (by decide) (by decide) (by decide) _
    (Cert.Domain.index_bounds _ _ _ _ _ _ _ hpre).2 _ _

/-- The kernel's result array after the run: the score of the two row gathers and the six parameter arrays. -/
theorem kernel_value (c : Dev nD) (hpre : PreAt m c) :
    (dats m 0 c).arrAt 7 cfg0.N
      = Cert.Spec.score
          (Host.gather gather_S100000x128_S1000000x1_S1000000x128_1_0_n_n_0_1_1128 (m ((c : Thread nD τ).loc main_arg0))
            (wrapped 100000#32 (idxRow0 (m ((c : Thread nD τ).loc main_arg2)))))
          (Host.gather gather_S50000x128_S1000000x1_S1000000x128_1_0_n_n_0_1_1128 (m ((c : Thread nD τ).loc main_arg1))
            (wrapped 50000#32 (idxRow1 (m ((c : Thread nD τ).loc main_arg2)))))
          (m ((c : Thread nD τ).loc main_arg3)) (m ((c : Thread nD τ).loc main_arg4)) (m ((c : Thread nD τ).loc main_arg5))
          (m ((c : Thread nD τ).loc main_arg6)) := by
  rw [Cert.KernelIdeal.Final.final, gathered_first m c hpre, gathered_second m c hpre, found_v6, found_v7, V_main_arg4, V_main_arg5,
    V_main_arg6]
  exact Cert.KernelIdeal.Bridge.kernelScore_of_halves _ _ _ _ _ _

end KernelSide

/-! ## The reference's gathers are the same row gathers -/

section Link

open Cert.KernelIdeal.HostSide

/-- The reference gathers the first table at the same wrapped index column … -/
theorem ref_gather_first (x0 : Cert.ReferenceIdeal.S100000x128.Idx → EReal) (x2 : IVec Cert.ReferenceIdeal.S2x1000000 32) :
    Cert.ReferenceIdeal.Read.val_main_v8 (F := Ideal) x0 x2
      = Host.gather Cert.KernelIdeal.gather_S100000x128_S1000000x1_S1000000x128_1_0_n_n_0_1_1128 x0 (wrapped 100000#32 (idxRow0 x2)) := rfl

/-- … and the second table likewise. -/
theorem ref_gather_second (x1 : Cert.ReferenceIdeal.S50000x128.Idx → EReal) (x2 : IVec Cert.ReferenceIdeal.S2x1000000 32) :
    Cert.ReferenceIdeal.Read.val_main_v17 (F := Ideal) x1 x2
      = Host.gather Cert.KernelIdeal.gather_S50000x128_S1000000x1_S1000000x128_1_0_n_n_0_1_1128 x1 (wrapped 50000#32 (idxRow1 x2)) := rfl

end Link

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Both runs end, from memories that agree on the arguments, with the result array at the same function of the
    arguments: the score of the two row gathers. -/
theorem algebraic : Cert.algebraic_KernelIdeal_ReferenceIdeal := by
  intro m ρ m' ρ' hpre hagree
  refine ⟨fun c => Cert.Spec.score
      (Host.gather Cert.KernelIdeal.gather_S100000x128_S1000000x1_S1000000x128_1_0_n_n_0_1_1128
        (m ((c.tc : Thread Cert.KernelIdeal.nD Cert.KernelIdeal.τ).loc Cert.KernelIdeal.main_arg0))
        (Cert.KernelIdeal.HostSide.wrapped 100000#32 (Cert.KernelIdeal.HostSide.idxRow0 (m ((c.tc : Thread Cert.KernelIdeal.nD Cert.KernelIdeal.τ).loc Cert.KernelIdeal.main_arg2)))))
      (Host.gather Cert.KernelIdeal.gather_S50000x128_S1000000x1_S1000000x128_1_0_n_n_0_1_1128
        (m ((c.tc : Thread Cert.KernelIdeal.nD Cert.KernelIdeal.τ).loc Cert.KernelIdeal.main_arg1))
        (Cert.KernelIdeal.HostSide.wrapped 50000#32 (Cert.KernelIdeal.HostSide.idxRow1 (m ((c.tc : Thread Cert.KernelIdeal.nD Cert.KernelIdeal.τ).loc Cert.KernelIdeal.main_arg2)))))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Value.run_blocks m ρ)
    exact kernel_value m c (hpre c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.RefSide.ref_is_score, ref_gather_first, ref_gather_second,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
